-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S8 : Shape := ⟨1, ![8]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S8 : S_.BroadcastsInDim S8 (![] : Fin 0 → Fin S8.rank)
  reducesTo_S8_S_d0 : S8.ReducesTo [0] S_
  bcast_S_S4096x8 : S_.BroadcastsInDim S4096x8 (![] : Fin 0 → Fin S4096x8.rank)
  reducesTo_S4096x8_S_d0_1 : S4096x8.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x4096 .f32) (main_arg5 : FVec F S1024 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8x4096x1024 .f32) (main_arg1 : FVec F S8 .f32) (main_arg2 : FVec F S4096x8 .f32) (main_arg3 : FVec F S4096 .f32) (main_arg4 : FVec F S1024x4096 .f32) (main_arg5 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S4096x8 .f32 := Host.absf main_arg2
  let main_cst_2 : FVec F S_ .f32 := constant S_ .f32 0x7F800000#32
  let main_v10 : FVec F S4096x8 .f32 := broadcastInDim S4096x8 ![] bcast_S_S4096x8 main_cst_2
  let main_v11 : IVec S4096x8 1 := cmpf .olt main_v9 main_v10
  let main_c_3 : IVec S_ 1 := constantI S_ 1 1#1
  let main_v12 : IVec S_ 1 := (fun x v => Host.reduce IntOp.andi x v reducesTo_S4096x8_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S8x4096x1024 : Shape := ⟨3, ![8, 4096, 1024]⟩
abbrev S8 : Shape := ⟨1, ![8]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S8x4096x8 : Shape := ⟨3, ![8, 4096, 8]⟩
abbrev S32768x8 : Shape := ⟨2, ![32768, 8]⟩
abbrev S1x8 : Shape := ⟨2, ![1, 8]⟩
abbrev S8x4096 : Shape := ⟨2, ![8, 4096]⟩
abbrev S1x4096 : Shape := ⟨2, ![1, 4096]⟩
abbrev S4096x1024 : Shape := ⟨2, ![4096, 1024]⟩
abbrev S1x1024 : Shape := ⟨2, ![1, 1024]⟩
abbrev S32768x1024 : Shape := ⟨2, ![32768, 1024]⟩
abbrev S512x8 : Shape := ⟨2, ![512, 8]⟩
abbrev S512x1024 : Shape := ⟨2, ![512, 1024]⟩
abbrev S512x4096 : Shape := ⟨2, ![512, 4096]⟩

abbrev nBuf : Space → Nat
  | .hbm => 17
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S8, .f32⟩
  | .hbm, ⟨2, _⟩ => ⟨S4096x8, .f32⟩
  | .hbm, ⟨3, _⟩ => ⟨S4096, .f32⟩
  | .hbm, ⟨4, _⟩ => ⟨S1024x4096, .f32⟩
  | .hbm, ⟨5, _⟩ => ⟨S1024, .f32⟩
  | .hbm, ⟨6, _⟩ => ⟨S8x4096x8, .f32⟩
  | .hbm, ⟨7, _⟩ => ⟨S32768x8, .f32⟩
  | .hbm, ⟨8, _⟩ => ⟨S1x8, .f32⟩
  | .hbm, ⟨9, _⟩ => ⟨S8x4096, .f32⟩
  | .hbm, ⟨10, _⟩ => ⟨S8x4096, .bf16⟩
  | .hbm, ⟨11, _⟩ => ⟨S1x4096, .f32⟩
  | .hbm, ⟨12, _⟩ => ⟨S4096x1024, .f32⟩
  | .hbm, ⟨13, _⟩ => ⟨S4096x1024, .bf16⟩
  | .hbm, ⟨14, _⟩ => ⟨S1x1024, .f32⟩
  | .hbm, ⟨15, _⟩ => ⟨S32768x1024, .f32⟩
  | .hbm, ⟨16, _⟩ => ⟨S8x4096x1024, .f32⟩
  | .local _ .vmem, ⟨0, _⟩ => ⟨S512x8, .f32⟩
  | .local _ .vmem, ⟨1, _⟩ => ⟨S512x8, .f32⟩
  | .local _ .vmem, ⟨2, _⟩ => ⟨S1x8, .f32⟩
  | .local _ .vmem, ⟨3, _⟩ => ⟨S8x4096, .bf16⟩
  | .local _ .vmem, ⟨4, _⟩ => ⟨S1x4096, .f32⟩
  | .local _ .vmem, ⟨5, _⟩ => ⟨S4096x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S8x4096x1024_S8x4096x8_0_0_0 : S8x4096x1024.Slices ![0, 0, 0] S8x4096x8
  shapeCasts_S8x4096x8_S32768x8 : S8x4096x8.ShapeCasts S32768x8
  shapeCasts_S8_S1x8 : S8.ShapeCasts S1x8
  transposes_S4096x8_S8x4096_1_0 : S4096x8.Transposes [1, 0] S8x4096
  bitsLt_bf16_f32 : FTy.bits .bf16 < FTy.bits .f32
  shapeCasts_S4096_S1x4096 : S4096.ShapeCasts S1x4096
  transposes_S1024x4096_S4096x1024_1_0 : S1024x4096.Transposes [1, 0] S4096x1024
  shapeCasts_S1024_S1x1024 : S1024.ShapeCasts S1x1024
  inb_S512x8_S512x8_0_0 : ∀ a, (![0, 0] : Fin 2 → Nat) a + S512x8.size a ≤ S512x8.size a
  h_S512x8 : 0 < S512x8.numel
  shapeCasts_S512x8_S512x8 : S512x8.ShapeCasts S512x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S512x8 : S1x8.Broadcasts S512x8
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S32768x1024_S8x4096x1024 : S32768x1024.ShapeCasts S8x4096x1024
  dot_S512x8_S8x4096_S512x4096_1_0_0_1_n_n_wf : DotDims.WF S512x8 S8x4096 S512x4096 [1] [0] [0] [1] [] []
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8.size a ≤ S32768x8.size a
  hwx0_0 : ∀ i : grid0.Coords, EltTy.bits .f32 = 32 ∨ (Rect.block (s := S32768x8) S512x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8.size a ≤ S1x8.size a
  hwx0_1 : ∀ i : grid0.Coords, EltTy.bits .f32 = 32 ∨ (Rect.block (s := S1x8) S1x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x4096.size a ≤ S8x4096.size a
  hwx0_2 : ∀ i : grid0.Coords, EltTy.bits .bf16 = 32 ∨ (Rect.block (s := S8x4096) S8x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S32768x1024.size a
  hwx0_6 : ∀ i : grid0.Coords, EltTy.bits .f32 = 32 ∨ (Rect.block (s := S32768x1024) S512x1024.size (cc0_transform_6 i) (hinb0_6 i)).WholeWords (EltTy.packing .f32)

variable [Facts₀]

def dot_S512x8_S8x4096_S512x4096_1_0_0_1_n_n : DotDims S512x8 S8x4096 S512x4096 where
  lhsContracting := [1]
  rhsContracting := [0]
  lhsNonContracting := [0]
  rhsNonContracting := [1]
  lhsBatch := []
  rhsBatch := []
  wf := dot_S512x8_S8x4096_S512x4096_1_0_0_1_n_n_wf
def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_v1) S512x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S8x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S8 : Shape := ⟨1, ![8]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S8x4096x8 : Shape := ⟨3, ![8, 4096, 8]⟩
abbrev S1x1x8 : Shape := ⟨3, ![1, 1, 8]⟩
abbrev S8x4096x4096 : Shape := ⟨3, ![8, 4096, 4096]⟩
abbrev S1x1x4096 : Shape := ⟨3, ![1, 1, 4096]⟩
abbrev S_ : Shape := ⟨0, ![]⟩
abbrev S1x1x1024 : Shape := ⟨3, ![1, 1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8, .f32⟩
  | .hbm, ⟨2, _⟩ => ⟨S4096x8, .f32⟩
  | .hbm, ⟨3, _⟩ => ⟨S4096, .f32⟩
  | .hbm, ⟨4, _⟩ => ⟨S1024x4096, .f32⟩
  | .hbm, ⟨5, _⟩ => ⟨S1024, .f32⟩
  | .hbm, ⟨6, _⟩ => ⟨S8, .f32⟩
  | .hbm, ⟨7, _⟩ => ⟨S8x4096x8, .f32⟩
  | .hbm, ⟨8, _⟩ => ⟨S8x4096x8, .f32⟩
  | .hbm, ⟨9, _⟩ => ⟨S1x1x8, .f32⟩
  | .hbm, ⟨10, _⟩ => ⟨S8x4096x8, .f32⟩
  | .hbm, ⟨11, _⟩ => ⟨S8x4096x8, .f32⟩
  | .hbm, ⟨12, _⟩ => ⟨S8x4096x4096, .f32⟩
  | .hbm, ⟨13, _⟩ => ⟨S1x1x4096, .f32⟩
  | .hbm, ⟨14, _⟩ => ⟨S8x4096x4096, .f32⟩
  | .hbm, ⟨15, _⟩ => ⟨S8x4096x4096, .f32⟩
  | .hbm, ⟨16, _⟩ => ⟨S_, .f32⟩
  | .hbm, ⟨17, _⟩ => ⟨S8x4096x4096, .f32⟩
  | .hbm, ⟨18, _⟩ => ⟨S8x4096x4096, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_cst : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  slices_S8x4096x1024_S8x4096x8_0_0_0 : S8x4096x1024.Slices ![0, 0, 0] S8x4096x8
  bcast_S8_S1x1x8_2 : S8.BroadcastsInDim S1x1x8 (![2] : Fin 1 → Fin S1x1x8.rank)
  bcast_S1x1x8_S8x4096x8_0_1_2 : S1x1x8.BroadcastsInDim S8x4096x8 (![0, 1, 2] : Fin 3 → Fin S8x4096x8.rank)
  bcast_S4096_S1x1x4096_2 : S4096.BroadcastsInDim S1x1x4096 (![2] : Fin 1 → Fin S1x1x4096.rank)
  bcast_S1x1x4096_S8x4096x4096_0_1_2 : S1x1x4096.BroadcastsInDim S8x4096x4096 (![0, 1, 2] : Fin 3 → Fin S8x4096x4096.rank)
  bcast_S_S8x4096x4096 : S_.BroadcastsInDim S8x4096x4096 (![] : Fin 0 → Fin S8x4096x4096.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  dot_S8x4096x8_S4096x8_S8x4096x4096_2_1_01_0_n_n_wf : DotDims.WF S8x4096x8 S4096x8 S8x4096x4096 [2] [1] [0, 1] [0] [] []
  dot_S8x4096x4096_S1024x4096_S8x4096x1024_2_1_01_0_n_n_wf : DotDims.WF S8x4096x4096 S1024x4096 S8x4096x1024 [2] [1] [0, 1] [0] [] []

variable [Facts₀]

def dot_S8x4096x8_S4096x8_S8x4096x4096_2_1_01_0_n_n : DotDims S8x4096x8 S4096x8 S8x4096x4096 where
  lhsContracting := [2]
  rhsContracting := [1]
  lhsNonContracting := [0, 1]
  rhsNonContracting := [0]
  lhsBatch := []
  rhsBatch := []
  wf := dot_S8x4096x8_S4096x8_S8x4096x4096_2_1_01_0_n_n_wf
def dot_S8x4096x4096_S1024x4096_S8x4096x1024_2_1_01_0_n_n : DotDims S8x4096x4096 S1024x4096 S8x4096x1024 where
  lhsContracting := [2]
  rhsContracting := [1]
  lhsNonContracting := [0, 1]
  rhsNonContracting := [0]
  lhsBatch := []
  rhsBatch := []
  wf := dot_S8x4096x4096_S1024x4096_S8x4096x1024_2_1_01_0_n_n_wf

class Facts : Prop extends Facts₀ where

variable [Facts]
-- ==== Proof.Spec.lean ====
/-
  The function both programs compute, written once over plain coordinates.

  A token is a row of eight angles `a_k`. With trainable angles `θ_k` its features are `q_k = cos θ_k · cos a_k`
  (the closed form of ⟨Z_k⟩ after RX(a_k) then RY(θ_k) on |0⟩). A two-layer perceptron follows:
  hidden unit `f` is `max (Σ_k q_k · W1[f,k] + b1[f]) 0` and output `e` is `Σ_f hidden_f · W2[e,f] + b2[e]`.
  Everything is read on the extended reals, where sums and products are the exact ones; no law beyond
  re-indexing is used, so nothing here asks the inputs to be finite.

  `token` is the output of one token as a function of its angles and the weights given by coordinates;
  `result` lays it over the [8, 4096, 1024] array of the programs: token (b, s) reads the first eight of the
  1024 entries of row (b, s), and each weight matrix is read in the [out, in] layout of a linear layer.
-/
import Idealize.ShloMosaic.PureOps.Ideal
import Idealize.ShloMosaic.Lib.ValueIdx

noncomputable section

namespace Cert.Spec

open Idealize.ShloMosaic Idealize.ShloMosaic.ValueIdx

/-- Hidden unit `f` of a token with angles `a`: the rectified affine image of the features `cos θ_k · cos a_k`. -/
def hiddenUnit (a θ : Fin 8 → EReal) (W1 : Fin 4096 → Fin 8 → EReal) (b1 : Fin 4096 → EReal) (f : Fin 4096) : EReal :=
  max ((∑ k : Fin 8, (Ideal.cos (θ k) * Ideal.cos (a k)) * W1 f k) + b1 f) 0

/-- Output `e` of that token: the affine image of its hidden units. -/
def token (a θ : Fin 8 → EReal) (W1 : Fin 4096 → Fin 8 → EReal) (b1 : Fin 4096 → EReal)
    (W2 : Fin 1024 → Fin 4096 → EReal) (b2 : Fin 1024 → EReal) (e : Fin 1024) : EReal :=
  (∑ f : Fin 4096, hiddenUnit a θ W1 b1 f * W2 e f) + b2 e

/-- The first eight columns of a row of 1024. -/
abbrev col (k : Fin 8) : Fin 1024 := ⟨k.val, by have := k.isLt; omega⟩

/-- The whole result: entry (b, s, e) is output `e` of the token whose angles are the first eight entries of row (b, s). -/
def result (x : (⟨3, ![8, 4096, 1024]⟩ : Shape).Idx → EReal) (θ : (⟨1, ![8]⟩ : Shape).Idx → EReal)
    (W1 : (⟨2, ![4096, 8]⟩ : Shape).Idx → EReal) (b1 : (⟨1, ![4096]⟩ : Shape).Idx → EReal)
    (W2 : (⟨2, ![1024, 4096]⟩ : Shape).Idx → EReal) (b2 : (⟨1, ![1024]⟩ : Shape).Idx → EReal) :
    (⟨3, ![8, 4096, 1024]⟩ : Shape).Idx → EReal := fun i =>
  token (fun k => x (ix3 (i 0) (i 1) (col k))) (fun k => θ (ix1 k)) (fun f k => W1 (ix2 f k)) (fun f => b1 (ix1 f))
    (fun e f => W2 (ix2 e f)) (fun e => b2 (ix1 e)) (i 2)

/-- Two tokens with the same angles and weights, coordinate by coordinate, have the same outputs. -/
theorem token_congr {a a' θ θ' : Fin 8 → EReal} {W1 W1' : Fin 4096 → Fin 8 → EReal} {b1 b1' : Fin 4096 → EReal}
    {W2 W2' : Fin 1024 → Fin 4096 → EReal} {b2 b2' : Fin 1024 → EReal} (e : Fin 1024)
    (ha : ∀ k, a k = a' k) (hθ : ∀ k, θ k = θ' k) (hW1 : ∀ f k, W1 f k = W1' f k) (hb1 : ∀ f, b1 f = b1' f)
    (hW2 : ∀ f, W2 e f = W2' e f) (hb2 : b2 e = b2' e) :
    token a θ W1 b1 W2 b2 e = token a' θ' W1' b1' W2' b2' e := by
  obtain rfl : a = a' := funext ha
  obtain rfl : θ = θ' := funext hθ
  obtain rfl : W1 = W1' := funext fun f => funext (hW1 f)
  obtain rfl : b1 = b1' := funext hb1
  unfold token
  rw [hb2]
  exact congrArg (· + b2' e) (Finset.sum_congr rfl fun f _ => by rw [hW2 f])

end Cert.Spec

end
-- ==== Proof.RefValue.lean ====
/-
  The reference read at an index is the specification.

  The reference's run ends with its result at the composed term of its seventeen host operations. Read one
  operation at a time (the generated read-at-an-index lemmas), entry (b, s, e) of that term is
    Σ_f max (Σ_k (cos θ_k · cos x[b,s,k]) · W1[f,k] + b1[f]) 0 · W2[e,f] + b2[e],
  the two `dot_general`s being plain sums over their one contracted axis and every broadcast reading its
  operand at the trailing coordinate. That is `Spec.result` word for word; what is proved here is only
  that the generated index maps composed are the coordinates the specification names.
-/
import proofs.«170199_j65481071396242_1_alg».proof.Proof.Gen.ReferenceIdeal.Read
import proofs.«170199_j65481071396242_1_alg».proof.Proof.Spec

noncomputable section

namespace Cert.ReferenceIdeal.RefValue

open Cert.ReferenceIdeal Cert.ReferenceIdeal.Read Idealize.ShloMosaic Idealize.ShloMosaic.ValueIdx Cert.Spec

/-- The rectified first layer at (b, s, f) is hidden unit `f` of token (b, s): the contraction runs over the eight
    features, each the product of the broadcast `cos θ_k` and `cos` of the sliced entry (b, s, k). -/
theorem hidden_eq (x0 : (⟨S8x4096x1024, .f32⟩ : BufTy).Contents (Elt Ideal)) (x1 : (⟨S8, .f32⟩ : BufTy).Contents (Elt Ideal))
    (x2 : (⟨S4096x8, .f32⟩ : BufTy).Contents (Elt Ideal)) (x3 : (⟨S4096, .f32⟩ : BufTy).Contents (Elt Ideal)) (j : S8x4096x4096.Idx) :
    val_main_v10 (F := Ideal) x0 x1 x2 x3 j
      = hiddenUnit (fun k => x0 (ix3 (j 0) (j 1) (col k))) (fun k => x1 (ix1 k)) (fun f k => x2 (ix2 f k)) (fun f => x3 (ix1 f)) (j 2) := by
  rw [val_main_v10_apply, val_main_v9_apply, val_main_v6_apply, val_main_v8_apply, val_main_v7_apply,
    val_main_call0_v0_apply, val_main_call0_cst_apply]
  unfold hiddenUnit
  simp only [Ideal.maximumf_def, Ideal.addf_def, Ideal.ofBits_def, Ideal.ofBits_zero_f32]
  have eb : idx_main_v7 (idx_main_v8 j) = ix1 (j 2) := funext fun a => match a with | ⟨0, _⟩ => rfl
  rw [eb]
  refine congrArg (fun s => max (s + x3 (ix1 (j 2))) 0) (Finset.sum_congr rfl fun k _ => ?_)
  rw [val_main_v5_apply, val_main_v4_apply, val_main_v3_apply, val_main_v0_apply, val_main_v2_apply, val_main_v1_apply]
  simp only [Ideal.mulf_def, Ideal.hostUnary_cos_def]
  have eθ : idx_main_v3 (idx_main_v4 (lidx_main_v6 j k)) = ix1 k := funext fun a => match a with | ⟨0, _⟩ => rfl
  have ex : idx_main_v1 (lidx_main_v6 j k) = ix3 (j 0) (j 1) (col k) :=
    funext fun a => match a with | ⟨0, _⟩ => rfl | ⟨1, _⟩ => rfl | ⟨2, _⟩ => rfl
  have ew : ridx_main_v6 j k = ix2 (j 2) k := funext fun a => match a with | ⟨0, _⟩ => rfl | ⟨1, _⟩ => rfl
  rw [eθ, ex, ew]
  rfl

/-- The reference's result is the specification of its arguments. -/
theorem ref_eq (x0 : (⟨S8x4096x1024, .f32⟩ : BufTy).Contents (Elt Ideal)) (x1 : (⟨S8, .f32⟩ : BufTy).Contents (Elt Ideal))
    (x2 : (⟨S4096x8, .f32⟩ : BufTy).Contents (Elt Ideal)) (x3 : (⟨S4096, .f32⟩ : BufTy).Contents (Elt Ideal))
    (x4 : (⟨S1024x4096, .f32⟩ : BufTy).Contents (Elt Ideal)) (x5 : (⟨S1024, .f32⟩ : BufTy).Contents (Elt Ideal)) :
    val_main_v14 (F := Ideal) x0 x1 x2 x3 x4 x5 = result x0 x1 x2 x3 x4 x5 := by
  funext i
  rw [val_main_v14_apply, val_main_v11_apply, val_main_v13_apply, val_main_v12_apply]
  unfold result token
  simp only [Ideal.addf_def]
  have eb : idx_main_v12 (idx_main_v13 i) = ix1 (i 2) := funext fun a => match a with | ⟨0, _⟩ => rfl
  rw [eb]
  refine congrArg (fun s => s + x5 (ix1 (i 2))) (Finset.sum_congr rfl fun f _ => ?_)
  have ew : ridx_main_v11 i f = ix2 (i 2) f := funext fun a => match a with | ⟨0, _⟩ => rfl | ⟨1, _⟩ => rfl
  rw [hidden_eq, ew]
  rfl

end Cert.ReferenceIdeal.RefValue

end
-- ==== Proof.Payload.lean ====
/-
  What the kernel body stores, at one entry.

  At a grid point the body loads a block of 512 tokens (x0 : [512, 8]), the angles θ (x1 : [1, 8]), W1ᵀ
  (x2 : [8, 4096]), b1 (x3 : [1, 4096]), W2ᵀ (x4 : [4096, 1024]) and b2 (x5 : [1, 1024]), and stores one
  [512, 1024] value. Read at entry (p, e) on the extended reals — a change of float format is the identity,
  a matmul into the zero accumulator is the plain sum over its one contracted axis, a row broadcast reads
  its one row — that value is output `e` of the token whose angles are row `p` of x0:
    Σ_f max (Σ_k (cos x1[0,k] · cos x0[p,k]) · x2[k,f] + x3[0,f]) 0 · x4[f,e] + x5[0,e].
-/
import proofs.«170199_j65481071396242_1_alg».proof.Proof.Gen.KernelIdeal.Skeleton
import proofs.«170199_j65481071396242_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.Spec

/-! ## The first matmul: [512, 8] × [8, 4096], contracting the eight features -/

theorem lhs1_0 (i : S512x4096.Idx) (q : dot_S512x8_S8x4096_S512x4096_1_0_0_1_n_n.contr.Idx) :
    (dot_S512x8_S8x4096_S512x4096_1_0_0_1_n_n.lhsIdx i q 0).val = (i 0).val := by
  unfold DotDims.lhsIdx
  rw [dif_neg (show ¬(0 : Fin S512x8.rank) ∈ dot_S512x8_S8x4096_S512x4096_1_0_0_1_n_n.lhsBatch by decide), dif_pos (show (0 : Fin S512x8.rank) ∈ dot_S512x8_S8x4096_S512x4096_1_0_0_1_n_n.lhsNonContracting by decide)]
  rfl
theorem lhs1_1 (i : S512x4096.Idx) (q : dot_S512x8_S8x4096_S512x4096_1_0_0_1_n_n.contr.Idx) :
    (dot_S512x8_S8x4096_S512x4096_1_0_0_1_n_n.lhsIdx i q 1).val = (q ⟨0, by decide⟩).val :=
  dot_S512x8_S8x4096_S512x4096_1_0_0_1_n_n.lhsIdx_val_of_single rfl i q
theorem rhs1_0 (i : S512x4096.Idx) (q : dot_S512x8_S8x4096_S512x4096_1_0_0_1_n_n.contr.Idx) :
    (dot_S512x8_S8x4096_S512x4096_1_0_0_1_n_n.rhsIdx i q 0).val = (q ⟨0, by decide⟩).val :=
  dot_S512x8_S8x4096_S512x4096_1_0_0_1_n_n.rhsIdx_val_of_single rfl i q
theorem rhs1_1 (i : S512x4096.Idx) (q : dot_S512x8_S8x4096_S512x4096_1_0_0_1_n_n.contr.Idx) :
    (dot_S512x8_S8x4096_S512x4096_1_0_0_1_n_n.rhsIdx i q 1).val = (i 1).val := by
  unfold DotDims.rhsIdx
  rw [dif_neg (show ¬(1 : Fin S8x4096.rank) ∈ dot_S512x8_S8x4096_S512x4096_1_0_0_1_n_n.rhsBatch by decide), dif_pos (show (1 : Fin S8x4096.rank) ∈ dot_S512x8_S8x4096_S512x4096_1_0_0_1_n_n.rhsNonContracting by decide)]
  rfl

/-- Entry (p, f) of the first product is the sum over the eight features. -/
theorem matmul1_apply (l : FVec Ideal S512x8 .bf16) (r : FVec Ideal S8x4096 .bf16) (p : Fin 512) (f : Fin 4096) :
    matmul dot_S512x8_S8x4096_S512x4096_1_0_0_1_n_n none l r (constant (F := Ideal) S512x4096 .f32 0x00000000#32) (ix2 p f)
      = ∑ k : Fin 8, l (ix2 p k) * r (ix2 k f) := by
  simp only [matmul]
  rw [Ideal.matmul_constant_zero_apply, ← Equiv.sum_comp (ValueIdx.contrEquiv1 dot_S512x8_S8x4096_S512x4096_1_0_0_1_n_n 8 rfl rfl).symm]
  refine Finset.sum_congr rfl fun k _ => ?_
  have hk := ValueIdx.contrEquiv1_symm_val dot_S512x8_S8x4096_S512x4096_1_0_0_1_n_n 8 rfl rfl k
  have el : dot_S512x8_S8x4096_S512x4096_1_0_0_1_n_n.lhsIdx (ix2 p f) ((ValueIdx.contrEquiv1 dot_S512x8_S8x4096_S512x4096_1_0_0_1_n_n 8 rfl rfl).symm k) = ix2 p k := funext fun a => Fin.ext (by
    match a with
    | ⟨0, _⟩ => exact lhs1_0 _ _
    | ⟨1, _⟩ => exact (lhs1_1 _ _).trans hk)
  have er : dot_S512x8_S8x4096_S512x4096_1_0_0_1_n_n.rhsIdx (ix2 p f) ((ValueIdx.contrEquiv1 dot_S512x8_S8x4096_S512x4096_1_0_0_1_n_n 8 rfl rfl).symm k) = ix2 k f := funext fun a => Fin.ext (by
    match a with
    | ⟨0, _⟩ => exact (rhs1_0 _ _).trans hk
    | ⟨1, _⟩ => exact rhs1_1 _ _)
  rw [el, er]

/-! ## The second matmul: [512, 4096] × [4096, 1024], contracting the hidden units -/

theorem lhs2_0 (i : S512x1024.Idx) (q : dot_S512x4096_S4096x1024_S512x1024_1_0_0_1_n_n.contr.Idx) :
    (dot_S512x4096_S4096x1024_S512x1024_1_0_0_1_n_n.lhsIdx i q 0).val = (i 0).val := by
  unfold DotDims.lhsIdx
  rw [dif_neg (show ¬(0 : Fin S512x4096.rank) ∈ dot_S512x4096_S4096x1024_S512x1024_1_0_0_1_n_n.lhsBatch by decide), dif_pos (show (0 : Fin S512x4096.rank) ∈ dot_S512x4096_S4096x1024_S512x1024_1_0_0_1_n_n.lhsNonContracting by decide)]
  rfl
theorem lhs2_1 (i : S512x1024.Idx) (q : dot_S512x4096_S4096x1024_S512x1024_1_0_0_1_n_n.contr.Idx) :
    (dot_S512x4096_S4096x1024_S512x1024_1_0_0_1_n_n.lhsIdx i q 1).val = (q ⟨0, by decide⟩).val :=
  dot_S512x4096_S4096x1024_S512x1024_1_0_0_1_n_n.lhsIdx_val_of_single rfl i q
theorem rhs2_0 (i : S512x1024.Idx) (q : dot_S512x4096_S4096x1024_S512x1024_1_0_0_1_n_n.contr.Idx) :
    (dot_S512x4096_S4096x1024_S512x1024_1_0_0_1_n_n.rhsIdx i q 0).val = (q ⟨0, by decide⟩).val :=
  dot_S512x4096_S4096x1024_S512x1024_1_0_0_1_n_n.rhsIdx_val_of_single rfl i q
theorem rhs2_1 (i : S512x1024.Idx) (q : dot_S512x4096_S4096x1024_S512x1024_1_0_0_1_n_n.contr.Idx) :
    (dot_S512x4096_S4096x1024_S512x1024_1_0_0_1_n_n.rhsIdx i q 1).val = (i 1).val := by
  unfold DotDims.rhsIdx
  rw [dif_neg (show ¬(1 : Fin S4096x1024.rank) ∈ dot_S512x4096_S4096x1024_S512x1024_1_0_0_1_n_n.rhsBatch by decide), dif_pos (show (1 : Fin S4096x1024.rank) ∈ dot_S512x4096_S4096x1024_S512x1024_1_0_0_1_n_n.rhsNonContracting by decide)]
  rfl

/-- Entry (p, e) of the second product is the sum over the 4096 hidden units. -/
theorem matmul2_apply (l : FVec Ideal S512x4096 .bf16) (r : FVec Ideal S4096x1024 .bf16) (p : Fin 512) (e : Fin 1024) :
    matmul dot_S512x4096_S4096x1024_S512x1024_1_0_0_1_n_n none l r (constant (F := Ideal) S512x1024 .f32 0x00000000#32) (ix2 p e)
      = ∑ f : Fin 4096, l (ix2 p f) * r (ix2 f e) := by
  simp only [matmul]
  rw [Ideal.matmul_constant_zero_apply, ← Equiv.sum_comp (ValueIdx.contrEquiv1 dot_S512x4096_S4096x1024_S512x1024_1_0_0_1_n_n 4096 rfl rfl).symm]
  refine Finset.sum_congr rfl fun k _ => ?_
  have hk := ValueIdx.contrEquiv1_symm_val dot_S512x4096_S4096x1024_S512x1024_1_0_0_1_n_n 4096 rfl rfl k
  have el : dot_S512x4096_S4096x1024_S512x1024_1_0_0_1_n_n.lhsIdx (ix2 p e) ((ValueIdx.contrEquiv1 dot_S512x4096_S4096x1024_S512x1024_1_0_0_1_n_n 4096 rfl rfl).symm k) = ix2 p k := funext fun a => Fin.ext (by
    match a with
    | ⟨0, _⟩ => exact lhs2_0 _ _
    | ⟨1, _⟩ => exact (lhs2_1 _ _).trans hk)
  have er : dot_S512x4096_S4096x1024_S512x1024_1_0_0_1_n_n.rhsIdx (ix2 p e) ((ValueIdx.contrEquiv1 dot_S512x4096_S4096x1024_S512x1024_1_0_0_1_n_n 4096 rfl rfl).symm k) = ix2 k e := funext fun a => Fin.ext (by
    match a with
    | ⟨0, _⟩ => exact (rhs2_0 _ _).trans hk
    | ⟨1, _⟩ => exact rhs2_1 _ _)
  rw [el, er]

/-! ## The stored value at an entry -/

/-- The cosine of a vector, read at an index, is the cosine of the entry. -/
theorem cos_apply {s : Shape} (v : FVec Ideal s .f32) (i : s.Idx) : cos v i = Ideal.cos (v i) := rfl

/-- Entry (p, e) of what the body stores is output `e` of the token in row `p` of the loaded block. -/
theorem pay_apply (x0 : FVec Ideal S512x8 .f32) (x1 : FVec Ideal S1x8 .f32) (x2 : FVec Ideal S8x4096 .bf16)
    (x3 : FVec Ideal S1x4096 .f32) (x4 : FVec Ideal S4096x1024 .bf16) (x5 : FVec Ideal S1x1024 .f32) (p : Fin 512) (e : Fin 1024) :
    k0_pay1 (F := Ideal) x0 x1 x2 x3 x4 x5 (ix2 p e)
      = token (fun k => x0 (ix2 p k)) (fun k => x1 (ix2 (0 : Fin 1) k)) (fun f k => x2 (ix2 k f)) (fun f => x3 (ix2 (0 : Fin 1) f))
          (fun e f => x4 (ix2 f e)) (fun e => x5 (ix2 (0 : Fin 1) e)) e := by
  unfold k0_pay1 token hiddenUnit
  simp only [shapeCast_self, addf_apply, matmul2_apply, matmul1_apply, broadcastTo_1b_ab_apply, truncf_apply,
    maximumf_apply, mulf_apply, broadcast_apply, cos_apply, Ideal.ofBits_def, Ideal.ofBits_zero_f32]

end Cert.KernelIdeal.Body

end
-- ==== Proof.Rows.lean ====
/-
  From the blocks to the array: what the region leaves in its output array.

  The grid has 64 points. Point `t` is handed rows 512·t … 512·t + 511 of the token array (window 0) and the
  whole of the five weight arrays (windows 1 to 5, block index (0, 0) at every point), and writes back rows
  512·t … 512·t + 511 of the output array (window 6). By the payload lemma, entry (p, e) of what it writes is
  output `e` of token 512·t + p; so every written block is a block of ONE whole-array function, `rows`: entry
  (r, e) is output `e` of token `r`. The 64 blocks tile the 32768 rows, so the array ends holding `rows`.
-/
import proofs.«170199_j65481071396242_1_alg».proof.Proof.Gen.KernelIdeal.Frame
import proofs.«170199_j65481071396242_1_alg».proof.Proof.Payload
import Idealize.ShloMosaic.Lib.Pipeline.Value
import Idealize.ShloMosaic.Lib.Tactic

noncomputable section

namespace Cert.KernelIdeal.Rows

open Cert.KernelIdeal Cert.KernelIdeal.Gen Cert.KernelIdeal.Body Idealize.ShloMosaic Idealize.ShloMosaic.TcCoe Idealize.SL.Sem
open Idealize.ShloMosaic.ValueIdx Cert.Spec
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The region's whole-array function of the six arrays it is given: entry (r, e) is output `e` of the token in row `r`
    of the token array, under the weights as the region finds them (W1 and W2 transposed, the vectors as one row). -/
def rows (A1 : FVec Ideal S32768x8 .f32) (A2 : FVec Ideal S1x8 .f32) (A4 : FVec Ideal S8x4096 .bf16) (A5 : FVec Ideal S1x4096 .f32)
    (A7 : FVec Ideal S4096x1024 .bf16) (A8 : FVec Ideal S1x1024 .f32) : FVec Ideal S32768x1024 .f32 := fun i =>
  token (fun k => A1 (ix2 (i 0) k)) (fun k => A2 (ix2 (0 : Fin 1) k)) (fun f k => A4 (ix2 k f)) (fun f => A5 (ix2 (0 : Fin 1) f))
    (fun e f => A7 (ix2 f e)) (fun e => A8 (ix2 (0 : Fin 1) e)) (i 1)

/-! ## The block indices, decided over the grid -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)

theorem t_lt (t : Fin cfg0.N) : t.val < 64 := Nat.lt_of_lt_of_eq t.isLt N_0

/-- Row `p` of point `t`'s block is row 512·t + p of the array. -/
abbrev row (t : Fin cfg0.N) (p : Fin 512) : Fin 32768 := ⟨512 * t.val + p.val, by have := t_lt t; have := p.isLt; omega⟩

/-! ## Each input block read off its array -/

theorem iblk0_apply (c : Dev nD) (t : Fin cfg0.N) (p : Fin 512) (k : Fin 8) :
    (iblk m c 0 t : FVec Ideal S512x8 .f32) (ix2 p k) = (V m c main_v1 : FVec Ideal S32768x8 .f32) (ix2 (row t p) k) := by
  obtain ⟨e0, e1⟩ := idx0 t
  unfold iblk
  rw [View.read_apply]
  show V m c main_v1 _ = V m c main_v1 _
  congr 1
  funext a
  apply Fin.ext
  match a with
  | ⟨0, _⟩ => show win0_0.index t (0 : Fin 2) * 512 + 1 * p.val = 512 * t.val + p.val; rw [e0]; omega
  | ⟨1, _⟩ => show win0_0.index t (1 : Fin 2) * 8 + 1 * k.val = k.val; rw [e1]; omega

theorem iblk1_apply (c : Dev nD) (t : Fin cfg0.N) (u : Fin 1) (k : Fin 8) :
    (iblk m c 1 t : FVec Ideal S1x8 .f32) (ix2 u k) = (V m c main_v2 : FVec Ideal S1x8 .f32) (ix2 u k) := by
  obtain ⟨e0, e1⟩ := idx1 t
  unfold iblk
  rw [View.read_apply]
  show V m c main_v2 _ = V m c main_v2 _
  congr 1
  funext a
  apply Fin.ext
  match a with
  | ⟨0, _⟩ => show win0_1.index t (0 : Fin 2) * 1 + 1 * u.val = u.val; rw [e0]; omega
  | ⟨1, _⟩ => show win0_1.index t (1 : Fin 2) * 8 + 1 * k.val = k.val; rw [e1]; omega

theorem iblk2_apply (c : Dev nD) (t : Fin cfg0.N) (k : Fin 8) (f : Fin 4096) :
    (iblk m c 2 t : FVec Ideal S8x4096 .bf16) (ix2 k f) = (V m c main_v4 : FVec Ideal S8x4096 .bf16) (ix2 k f) := by
  obtain ⟨e0, e1⟩ := idx2 t
  unfold iblk
  rw [View.read_apply]
  show V m c main_v4 _ = V m c main_v4 _
  congr 1
  funext a
  apply Fin.ext
  match a with
  | ⟨0, _⟩ => show win0_2.index t (0 : Fin 2) * 8 + 1 * k.val = k.val; rw [e0]; omega
  | ⟨1, _⟩ => show win0_2.index t (1 : Fin 2) * 4096 + 1 * f.val = f.val; rw [e1]; omega

theorem iblk3_apply (c : Dev nD) (t : Fin cfg0.N) (u : Fin 1) (f : Fin 4096) :
    (iblk m c 3 t : FVec Ideal S1x4096 .f32) (ix2 u f) = (V m c main_v5 : FVec Ideal S1x4096 .f32) (ix2 u f) := by
  obtain ⟨e0, e1⟩ := idx3 t
  unfold iblk
  rw [View.read_apply]
  show V m c main_v5 _ = V m c main_v5 _
  congr 1
  funext a
  apply Fin.ext
  match a with
  | ⟨0, _⟩ => show win0_3.index t (0 : Fin 2) * 1 + 1 * u.val = u.val; rw [e0]; omega
  | ⟨1, _⟩ => show win0_3.index t (1 : Fin 2) * 4096 + 1 * f.val = f.val; rw [e1]; omega

theorem iblk4_apply (c : Dev nD) (t : Fin cfg0.N) (f : Fin 4096) (e : Fin 1024) :
    (iblk m c 4 t : FVec Ideal S4096x1024 .bf16) (ix2 f e) = (V m c main_v7 : FVec Ideal S4096x1024 .bf16) (ix2 f e) := by
  obtain ⟨e0, e1⟩ := idx4 t
  unfold iblk
  rw [View.read_apply]
  show V m c main_v7 _ = V m c main_v7 _
  congr 1
  funext a
  apply Fin.ext
  match a with
  | ⟨0, _⟩ => show win0_4.index t (0 : Fin 2) * 4096 + 1 * f.val = f.val; rw [e0]; omega
  | ⟨1, _⟩ => show win0_4.index t (1 : Fin 2) * 1024 + 1 * e.val = e.val; rw [e1]; omega

theorem iblk5_apply (c : Dev nD) (t : Fin cfg0.N) (u : Fin 1) (e : Fin 1024) :
    (iblk m c 5 t : FVec Ideal S1x1024 .f32) (ix2 u e) = (V m c main_v8 : FVec Ideal S1x1024 .f32) (ix2 u e) := by
  obtain ⟨e0, e1⟩ := idx5 t
  unfold iblk
  rw [View.read_apply]
  show V m c main_v8 _ = V m c main_v8 _
  congr 1
  funext a
  apply Fin.ext
  match a with
  | ⟨0, _⟩ => show win0_5.index t (0 : Fin 2) * 1 + 1 * u.val = u.val; rw [e0]; omega
  | ⟨1, _⟩ => show win0_5.index t (1 : Fin 2) * 1024 + 1 * e.val = e.val; rw [e1]; omega

/-- Entry (p, e) of point `t`'s output block sits at (512·t + p, e) of the output array. -/
theorem emb6 (t : Fin cfg0.N) (p : Fin 512) (e : Fin 1024) :
    ((cfg0.win 6).blk t).view.emb (ix2 p e) = (ix2 (row t p) e : S32768x1024.Idx) := by
  obtain ⟨e0, e1⟩ := idx6 t
  funext a
  apply Fin.ext
  match a with
  | ⟨0, _⟩ => show win0_6.index t (0 : Fin 2) * 512 + 1 * p.val = 512 * t.val + p.val; rw [e0]; omega
  | ⟨1, _⟩ => show win0_6.index t (1 : Fin 2) * 1024 + 1 * e.val = e.val; rw [e1]; omega

/-! ## What a point writes back is its block of `rows` -/

theorem flushed_eq (c : Dev nD) (t : Fin cfg0.N) :
    (dats m 0 c).flushed 6 t = ((cfg0.win 6).blk t).view.read (Elt Ideal)
      (rows (V m c main_v1) (V m c main_v2) (V m c main_v4) (V m c main_v5) (V m c main_v7) (V m c main_v8)) := by
  show (cfg0.win 6).cut (grid0.coords t) ((dats m 0 c).after 6 t) = _
  rw [after0_6]
  unfold out0_6
  rw [View.canon_unit_zero hz]
  simp only [View.ld_unit_zero (S := S512x8) hz, View.ld_unit_zero (S := S1x8) hz, View.ld_unit_zero (S := S8x4096) hz,
    View.ld_unit_zero (S := S1x4096) hz, View.ld_unit_zero (S := S4096x1024) hz, View.ld_unit_zero (S := S1x1024) hz]
  funext j
  obtain ⟨p, e, rfl⟩ : ∃ (p : Fin 512) (e : Fin 1024), j = ix2 p e := ⟨j 0, j 1, eq_ix2 j⟩
  rw [View.read_apply]
  show k0_pay1 (F := Ideal) (iblk m c 0 t) (iblk m c 1 t) (iblk m c 2 t) (iblk m c 3 t) (iblk m c 4 t) (iblk m c 5 t) (ix2 p e)
    = rows (V m c main_v1) (V m c main_v2) (V m c main_v4) (V m c main_v5) (V m c main_v7) (V m c main_v8) (((cfg0.win 6).blk t).view.emb (ix2 p e))
  rw [emb6 t p e]
  refine (pay_apply (iblk m c 0 t) (iblk m c 1 t) (iblk m c 2 t) (iblk m c 3 t) (iblk m c 4 t) (iblk m c 5 t) p e).trans ?_
  unfold rows
  exact token_congr e (fun k => iblk0_apply m c t p k) (fun k => iblk1_apply m c t 0 k) (fun f k => iblk2_apply m c t k f)
    (fun f => iblk3_apply m c t 0 f) (fun f => iblk4_apply m c t f e) (iblk5_apply m c t 0 e)

/-! ## The blocks tile the array -/

theorem mem_blk6 (t : Fin cfg0.N) (i : S32768x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v9).slice (win0_6.rect t)).set ↔ _
  rw [View.set_slice_whole, Rect.mem_set_unit]
  exact Iff.rfl

/-- Row `r` is written by point `r / 512`. -/
theorem cover6 (i : S32768x1024.Idx) : ∃ t : Fin cfg0.N, (cfg0.win 6).flush t = true ∧ i ∈ ((cfg0.win 6).blk t).view.set := by
  have h0 : (i 0).val < 32768 := (i 0).isLt
  have h1 : (i 1).val < 1024 := (i 1).isLt
  have hN : cfg0.N = 64 := N_0
  have hlt : (i 0).val / 512 < cfg0.N := by rw [hN]; omega
  obtain ⟨e0, e1⟩ := idx6 ⟨(i 0).val / 512, hlt⟩
  refine ⟨⟨(i 0).val / 512, hlt⟩, flush0_6 _, ?_⟩
  rw [mem_blk6]
  intro a
  match a with
  | ⟨0, _⟩ =>
    show win0_6.index ⟨(i 0).val / 512, hlt⟩ (0 : Fin 2) * 512 ≤ (i 0).val ∧ (i 0).val < win0_6.index ⟨(i 0).val / 512, hlt⟩ (0 : Fin 2) * 512 + 512
    rw [e0]
    show (i 0).val / 512 * 512 ≤ (i 0).val ∧ (i 0).val < (i 0).val / 512 * 512 + 512
    omega
  | ⟨1, _⟩ =>
    show win0_6.index ⟨(i 0).val / 512, hlt⟩ (1 : Fin 2) * 1024 ≤ (i 1).val ∧ (i 1).val < win0_6.index ⟨(i 0).val / 512, hlt⟩ (1 : Fin 2) * 1024 + 1024
    rw [e1]
    omega

/-- The output array after the region is `rows` of the arrays the region was given. -/
theorem final (c : Dev nD) : (dats m 0 c).arrAt 6 cfg0.N
    = rows (V m c main_v1) (V m c main_v2) (V m c main_v4) (V m c main_v5) (V m c main_v7) (V m c main_v8) :=
  (dats m 0 c).arrAt_eq_of_cover 6 _ (fun t _ => flushed_eq m c t) cover6

end Cert.KernelIdeal.Rows

end
-- ==== Proof.Whole.lean ====
/-
  The kernel's program as a whole: its result array is the specification of its arguments.

  Before the region the host slices the first eight columns off x and flattens (batch, position) into one
  token axis (token r = b·4096 + s), writes θ, b1 and b2 as one-row arrays, and transposes W1 and W2 (the
  change of float format after the transpose is the identity on the extended reals). So, entry by entry:
    tokens[r, k] = x[b, s, k] for r = b·4096 + s;   θrow[0, k] = θ[k];   W1ᵀ[k, f] = W1[f, k];
    b1row[0, f] = b1[f];   W2ᵀ[f, e] = W2[e, f];   b2row[0, e] = b2[e].
  After the region the host unflattens the token axis: result[b, s, e] = out[b·4096 + s, e], and the region
  left `out = rows …` (the blocks-to-array module). Put together, result[b, s, e] is output `e` of the token
  with angles x[b, s, 0 … 7] under W1, b1, W2, b2: `Spec.result`.
-/
import proofs.«170199_j65481071396242_1_alg».proof.Proof.Gen.KernelIdeal.Frame
import proofs.«170199_j65481071396242_1_alg».proof.Proof.Rows
import Idealize.ShloMosaic.Lib.ValueLayout
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo Cert.Spec
open Idealize.ShloMosaic.Pipeline (Dat)

variable (m : (ℓ : Loc nD τ sig) → Buf (Elt Ideal) ℓ) (ρ : Dev nD → PrngReg)

/-! ## The arrays the region is given, as the host's terms of the arguments -/

theorem v1_eq (c : Dev nD) : (V m c main_v1 : FVec Ideal S32768x8 .f32)
    = shapeCast S32768x8 (extractStridedSlice S8x4096x8 ![0, 0, 0] (m ((c : Thread nD τ).loc main_arg0)) slices_S8x4096x1024_S8x4096x8_0_0_0) shapeCasts_S8x4096x8_S32768x8 := by
  show StableHlo.after hostOps0 (fun b => m (c, b)) (Proc.devRef .tc main_v1) = _
  after_results
  rfl

theorem v2_eq (c : Dev nD) : (V m c main_v2 : FVec Ideal S1x8 .f32)
    = shapeCast S1x8 (m ((c : Thread nD τ).loc main_arg1)) shapeCasts_S8_S1x8 := by
  show StableHlo.after hostOps0 (fun b => m (c, b)) (Proc.devRef .tc main_v2) = _
  after_results
  rfl

theorem v4_eq (c : Dev nD) : (V m c main_v4 : FVec Ideal S8x4096 .bf16)
    = truncf (F := Ideal) .bf16 (transpose S8x4096 [1, 0] (m ((c : Thread nD τ).loc main_arg2)) transposes_S4096x8_S8x4096_1_0) bitsLt_bf16_f32 := by
  show StableHlo.after hostOps0 (fun b => m (c, b)) (Proc.devRef .tc main_v4) = _
  after_results

theorem v5_eq (c : Dev nD) : (V m c main_v5 : FVec Ideal S1x4096 .f32)
    = shapeCast S1x4096 (m ((c : Thread nD τ).loc main_arg3)) shapeCasts_S4096_S1x4096 := by
  show StableHlo.after hostOps0 (fun b => m (c, b)) (Proc.devRef .tc main_v5) = _
  after_results
  rfl

theorem v7_eq (c : Dev nD) : (V m c main_v7 : FVec Ideal S4096x1024 .bf16)
    = truncf (F := Ideal) .bf16 (transpose S4096x1024 [1, 0] (m ((c : Thread nD τ).loc main_arg4)) transposes_S1024x4096_S4096x1024_1_0) bitsLt_bf16_f32 := by
  show StableHlo.after hostOps0 (fun b => m (c, b)) (Proc.devRef .tc main_v7) = _
  after_results

theorem v8_eq (c : Dev nD) : (V m c main_v8 : FVec Ideal S1x1024 .f32)
    = shapeCast S1x1024 (m ((c : Thread nD τ).loc main_arg5)) shapeCasts_S1024_S1x1024 := by
  show StableHlo.after hostOps0 (fun b => m (c, b)) (Proc.devRef .tc main_v8) = _
  after_results
  rfl

/-! ## The same, read at an entry -/

/-- Token r = b·4096 + s has angles x[b, s, 0 … 7]. -/
theorem v1_apply (c : Dev nD) (r : Fin 32768) (k : Fin 8) (b : Fin 8) (s : Fin 4096) (hr : r.val = b.val * 4096 + s.val) :
    (V m c main_v1 : FVec Ideal S32768x8 .f32) (ix2 r k)
      = (m ((c : Thread nD τ).loc main_arg0) : FVec Ideal S8x4096x1024 .f32) (ix3 b s (col k)) := by
  rw [v1_eq]
  refine (shapeCast_apply _ shapeCasts_S8x4096x8_S32768x8 (ix2 r k) (ix3 b s k) ?_).trans ?_
  · rw [Shape.rowMajor_val_three, Shape.rowMajor_val_two]
    show (b.val * 4096 + s.val) * 8 + k.val = r.val * 8 + k.val
    rw [hr]
  · exact extractStridedSlice_apply ![0, 0, 0] _ slices_S8x4096x1024_S8x4096x8_0_0_0 (ix3 b s k) (ix3 b s (col k)) (fun a => match a with
      | ⟨0, _⟩ => by show b.val = 0 + b.val; omega
      | ⟨1, _⟩ => by show s.val = 0 + s.val; omega
      | ⟨2, _⟩ => by show k.val = 0 + k.val; omega)

theorem v2_apply (c : Dev nD) (u : Fin 1) (k : Fin 8) :
    (V m c main_v2 : FVec Ideal S1x8 .f32) (ix2 u k) = (m ((c : Thread nD τ).loc main_arg1) : FVec Ideal S8 .f32) (ix1 k) := by
  rw [v2_eq]
  exact shapeCast_a_1a_apply _ shapeCasts_S8_S1x8 u k

theorem v4_apply (c : Dev nD) (k : Fin 8) (f : Fin 4096) :
    (V m c main_v4 : FVec Ideal S8x4096 .bf16) (ix2 k f) = (m ((c : Thread nD τ).loc main_arg2) : FVec Ideal S4096x8 .f32) (ix2 f k) := by
  rw [v4_eq, truncf_apply]
  exact transpose_ix2_apply _ transposes_S4096x8_S8x4096_1_0 k f

theorem v5_apply (c : Dev nD) (u : Fin 1) (f : Fin 4096) :
    (V m c main_v5 : FVec Ideal S1x4096 .f32) (ix2 u f) = (m ((c : Thread nD τ).loc main_arg3) : FVec Ideal S4096 .f32) (ix1 f) := by
  rw [v5_eq]
  exact shapeCast_a_1a_apply _ shapeCasts_S4096_S1x4096 u f

theorem v7_apply (c : Dev nD) (f : Fin 4096) (e : Fin 1024) :
    (V m c main_v7 : FVec Ideal S4096x1024 .bf16) (ix2 f e) = (m ((c : Thread nD τ).loc main_arg4) : FVec Ideal S1024x4096 .f32) (ix2 e f) := by
  rw [v7_eq, truncf_apply]
  exact transpose_ix2_apply _ transposes_S1024x4096_S4096x1024_1_0 f e

theorem v8_apply (c : Dev nD) (u : Fin 1) (e : Fin 1024) :
    (V m c main_v8 : FVec Ideal S1x1024 .f32) (ix2 u e) = (m ((c : Thread nD τ).loc main_arg5) : FVec Ideal S1024 .f32) (ix1 e) := by
  rw [v8_eq]
  exact shapeCast_a_1a_apply _ shapeCasts_S1024_S1x1024 u e

/-! ## The reshape after the region -/

theorem tail_eq (c : Dev nD) : Pipeline.afterTail₀ cfgs (dats m) 0 (V0 m) [hostOps1] c main_v10
    = shapeCast S8x4096x1024 ((dats m 0 c).arrAt 6 cfg0.N) shapeCasts_S32768x1024_S8x4096x1024 := by
  unfold Pipeline.afterTail₀
  show StableHlo.after hostOps1 _ (Proc.devRef .tc main_v10) = _
  after_results
  have e : Pipeline.withArrays (cfgs 0).spec c (V0 m c) (fun w => (dats m 0 c).arrAt w (cfgs 0).N) (Proc.devRef .tc main_v9)
      = (dats m 0 c).arrAt 6 cfg0.N := Pipeline.withArrays_arr spec0 launch0.win.arr_inj c _ _ 6
  rw [e]
  rfl

/-! ## The result array is the specification of the arguments -/

/-- Entry (b, s, e) of the result is entry (b·4096 + s, e) of the region's output, which is output `e` of token b·4096 + s,
    whose angles are x[b, s, 0 … 7]; the weights are the arguments, read through the host's transposes and row casts. -/
theorem value (c : Dev nD) : Pipeline.afterTail₀ cfgs (dats m) 0 (V0 m) [hostOps1] c main_v10
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [tail_eq, Rows.final]
  funext i
  obtain ⟨b, s, e, rfl⟩ : ∃ (b : Fin 8) (s : Fin 4096) (e : Fin 1024), i = ix3 b s e := ⟨i 0, i 1, i 2, eq_ix3 i⟩
  have hr : b.val * 4096 + s.val < 32768 := by have := b.isLt; have := s.isLt; omega
  refine (shapeCast_apply _ shapeCasts_S32768x1024_S8x4096x1024 (ix3 b s e) (ix2 (⟨b.val * 4096 + s.val, hr⟩ : Fin 32768) e) ?_).trans ?_
  · rw [Shape.rowMajor_val_two, Shape.rowMajor_val_three]
    rfl
  · unfold Rows.rows result
    exact token_congr e (fun k => v1_apply m c ⟨b.val * 4096 + s.val, hr⟩ k b s rfl) (fun k => v2_apply m c 0 k)
      (fun f k => v4_apply m c k f) (fun f => v5_apply m c 0 f) (fun f => v7_apply m c f e) (v8_apply m c 0 e)

/-! ## The run, read -/

/-- Every weakly fair execution of the kernel's program ends with the result array at the specification of the
    arguments, and the arguments as they were. -/
theorem run : θ_run defs (onTc (τ := τ) (main (F := Ideal))) ⟨m, fun _ => 0, ρ⟩ fun r => ∀ c : Dev nD,
      r.2.mem ((c : Thread nD τ).loc main_v10)
        = result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
      ⟨((h c).2 main_v10 (Pipeline.mem_restRefs_of main_v10 (by decide) (by decide))).trans (value m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c),
       ((h c).2 main_arg4 (Pipeline.mem_restRefs_of main_arg4 (by decide) (by decide))).trans (W_main_arg4 m (dats m) c),
       ((h c).2 main_arg5 (Pipeline.mem_restRefs_of main_arg5 (by decide) (by decide))).trans (W_main_arg5 m (dats m) c)⟩)
    (run_main m ρ)

end Cert.KernelIdeal.Whole

end
-- ==== Proof.lean ====
/-
  A per-token closed-form "quantum" feature map feeding a two-layer perceptron, as a fused kernel and as plain
  array code: both compute, on the extended reals,
    out[b, s, e] = Σ_f max (Σ_k (cos θ_k · cos x[b, s, k]) · W1[f, k] + b1[f]) 0 · W2[e, f] + b2[e]
  over the first eight entries of each row of x (`Spec.result`, Proof/Spec.lean).

  The reference does it with two `dot_general`s contracting the last axes of [8, 4096, ·] arrays against W1 and
  W2 in their [out, in] layout; read one operation at a time its result is that formula (Proof/RefValue.lean).
  The kernel flattens (b, s) into 32768 tokens, transposes the weights, and runs 64 grid points of 512 tokens:
  each point's stored block is the formula at its tokens (Proof/Payload.lean: the two matmuls into a zero
  accumulator are plain sums, the changes of float format the identity), the 64 blocks tile the output
  (Proof/Rows.lean), and the host's reshapes and transposes around the region only rename coordinates
  (Proof/Whole.lean). The two sides meet term for term: the same products in the same order under the same
  sums, so no law of arithmetic is used, only re-indexing, and the inputs' finiteness is never opened.

  The three frames: the kernel's two are the generated frame certificates; the reference's is its generated
  run with the result dropped. The idealization rewrote no operation, so `preserves` is `True`.
-/
import proofs.«170199_j65481071396242_1_alg».proof.Defs
import proofs.«170199_j65481071396242_1_alg».proof.Proof.Gen.Kernel
import proofs.«170199_j65481071396242_1_alg».proof.Proof.Gen.Kernel.Frame
import proofs.«170199_j65481071396242_1_alg».proof.Proof.Gen.KernelIdeal
import proofs.«170199_j65481071396242_1_alg».proof.Proof.Gen.KernelIdeal.Frame
import proofs.«170199_j65481071396242_1_alg».proof.Proof.Gen.ReferenceIdeal
import proofs.«170199_j65481071396242_1_alg».proof.Proof.Gen.ReferenceIdeal.Run
import proofs.«170199_j65481071396242_1_alg».proof.Proof.Gen.ReferenceIdeal.Read
import proofs.«170199_j65481071396242_1_alg».proof.Proof.Gen.Pre_finite_inputs
import proofs.«170199_j65481071396242_1_alg».proof.Proof.RefValue
import proofs.«170199_j65481071396242_1_alg».proof.Proof.Whole
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with their result arrays at `Spec.result` of arguments that agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨?_, (h c).2⟩)
    (Cert.ReferenceIdeal.Value.run (F := Ideal) m' ρ')
  obtain ⟨e0, e1, e2, e3, e4, e5⟩ := hagree c
  rw [(h c).1, Cert.ReferenceIdeal.Read.val_main_v14_eq, Cert.ReferenceIdeal.RefValue.ref_eq, e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
